-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256 : Shape := ⟨1, ![256]⟩
abbrev S200000x256 : Shape := ⟨2, ![200000, 256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel
  bcast_S_S200000x256 : S_.BroadcastsInDim S200000x256 (![] : Fin 0 → Fin S200000x256.rank)
  reducesTo_S200000x256_S_d0_1 : S200000x256.ReducesTo [0, 1] S_

variable [Facts]

def fn {F : FTy → Type} [FloatOps F] (main_arg0 : FVec F S256 .f32) (main_arg1 : FVec F S200000x256 .f32) (main_arg2 : FVec F S200000x256 .f32) : IVec S_ 1 :=
  let main_v0 : FVec F S256 .f32 := Host.absf main_arg0
  let main_cst : FVec F S_ .f32 := constant S_ .f32 0x7F800000#32
  let main_v1 : FVec F S256 .f32 := broadcastInDim S256 ![] bcast_S_S256 main_cst
  let main_v2 : IVec S256 1 := cmpf .olt main_v0 main_v1
  let main_c : IVec S_ 1 := constantI S_ 1 1#1
  let main_v3 : IVec S_ 1 := (fun x v => Host.reduce IntOp.andi x v reducesTo_S256_S_d0 h_S_) main_v2 main_c
  let main_v4 : FVec F S200000x256 .f32 := Host.absf main_arg1
  let main_cst_0 : FVec F S_ .f32 := constant S_ .f32 0x7F800000#32
  let main_v5 : FVec F S200000x256 .f32 := broadcastInDim S200000x256 ![] bcast_S_S200000x256 main_cst_0
  let main_v6 : IVec S200000x256 1 := cmpf .olt main_v4 main_v5
  let main_c_1 : IVec S_ 1 := constantI S_ 1 1#1
  let main_v7 : IVec S_ 1 := (fun x v => Host.reduce IntOp.andi x v reducesTo_S200000x256_S_d0_1 h_S_) main_v6 main_c_1
  let main_v8 : IVec S_ 1 := andi main_v3 main_v7
  let main_v9 : FVec F S200000x256 .f32 := Host.absf main_arg2
  let main_cst_2 : FVec F S_ .f32 := constant S_ .f32 0x7F800000#32
  let main_v10 : FVec F S200000x256 .f32 := broadcastInDim S200000x256 ![] bcast_S_S200000x256 main_cst_2
  let main_v11 : IVec S200000x256 1 := cmpf .olt main_v9 main_v10
  let main_c_3 : IVec S_ 1 := constantI S_ 1 1#1
  let main_v12 : IVec S_ 1 := (fun x v => Host.reduce IntOp.andi x v reducesTo_S200000x256_S_d0_1 h_S_) main_v11 main_c_3
  let main_v13 : IVec S_ 1 := andi main_v8 main_v12
  main_v13
-- ==== Kernel.lean ====
abbrev S256 : Shape := ⟨1, ![256]⟩
abbrev S200000x256 : Shape := ⟨2, ![200000, 256]⟩
abbrev S1x256 : Shape := ⟨2, ![1, 256]⟩
abbrev S2x1x256 : Shape := ⟨3, ![2, 1, 256]⟩
abbrev S5000x256 : Shape := ⟨2, ![5000, 256]⟩
abbrev S1x1x256 : Shape := ⟨3, ![1, 1, 256]⟩
abbrev S5000 : Shape := ⟨1, ![5000]⟩
abbrev S5000x1 : Shape := ⟨2, ![5000, 1]⟩
abbrev S_ : Shape := ⟨0, ![]⟩
abbrev S256x1 : Shape := ⟨2, ![256, 1]⟩
abbrev S1x256x1 : Shape := ⟨3, ![1, 256, 1]⟩
abbrev S2x256x1 : Shape := ⟨3, ![2, 256, 1]⟩

abbrev nBuf : Space → Nat
  | .hbm => 14
  | .vmem => 8
  | .smem => 0
  | _ => 0

abbrev bufTy : (tb : Table) → Fin (tcTables nBuf tb) → BufTy
  | .hbm, ⟨0, _⟩ => ⟨S256, .f32⟩
  | .hbm, ⟨1, _⟩ => ⟨S200000x256, .f32⟩
  | .hbm, ⟨2, _⟩ => ⟨S200000x256, .f32⟩
  | .hbm, ⟨3, _⟩ => ⟨S1x256, .f32⟩
  | .hbm, ⟨4, _⟩ => ⟨S2x1x256, .f32⟩
  | .hbm, ⟨5, _⟩ => ⟨S_, .f32⟩
  | .hbm, ⟨6, _⟩ => ⟨S256, .f32⟩
  | .hbm, ⟨7, _⟩ => ⟨S1x1x256, .f32⟩
  | .hbm, ⟨8, _⟩ => ⟨S1x256, .f32⟩
  | .hbm, ⟨9, _⟩ => ⟨S256x1, .f32⟩
  | .hbm, ⟨10, _⟩ => ⟨S256x1, .f32⟩
  | .hbm, ⟨11, _⟩ => ⟨S1x256x1, .f32⟩
  | .hbm, ⟨12, _⟩ => ⟨S1x256x1, .f32⟩
  | .hbm, ⟨13, _⟩ => ⟨S2x256x1, .f32⟩
  | .local _ .vmem, ⟨0, _⟩ => ⟨S1x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S5000x256, .f32⟩
  | .local _ .vmem, ⟨5, _⟩ => ⟨S1x1x256, .f32⟩
  | .local _ .vmem, ⟨6, _⟩ => ⟨S1x1x256, .f32⟩
  | .local _ .vmem, ⟨7, _⟩ => ⟨S1x256, .f32⟩
  | _, _ => ⟨S256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 20], ![false, false]⟩

def k0_cond2 (i : grid0.Coords) : BitVec 1 :=
  let arg1 : BitVec 32 := BitVec.ofNat 32 (i 1).val
  let c19_i32 : BitVec 32 := 19#32
  let v21 : BitVec 1 := Scalar.cmpi .eq arg1 c19_i32
  let v22 : BitVec 32 := Scalar.extui v21
  let c0_i32_11 : BitVec 32 := 0#32
  let v23 : BitVec 1 := Scalar.cmpi .ne v22 c0_i32_11
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S5000x256_S5000x256_0_0 : ∀ a, (![0, 0] : Fin 2 → Nat) a + S5000x256.size a ≤ S5000x256.size a
  h_S5000x256 : 0 < S5000x256.numel
  broadcasts_S1x256_S5000x256 : S1x256.Broadcasts S5000x256
  reduces_S5000x256_S5000 : S5000x256.Reduces [1] S5000
  shapeCasts_S5000_S5000x1 : S5000.ShapeCasts S5000x1
  broadcasts_S5000x1_S5000x256 : S5000x1.Broadcasts S5000x256
  reduces_S5000x256_S256 : S5000x256.Reduces [0] S256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  reducesTo_S2x1x256_S256_d0_1 : S2x1x256.ReducesTo [0, 1] S256
  h_S_ : 0 < S_.numel
  bcast_S256_S1x1x256_2 : S256.BroadcastsInDim S1x1x256 (![2] : Fin 1 → Fin S1x1x256.rank)
  shapeCasts_S1x1x256_S1x256 : S1x1x256.ShapeCasts S1x256
  shapeCasts_S256_S256x1 : S256.ShapeCasts S256x1
  shapeCasts_S1x256_S256x1 : S1x256.ShapeCasts S256x1
  bcast_S256x1_S1x256x1_1_2 : S256x1.BroadcastsInDim S1x256x1 (![1, 2] : Fin 2 → Fin S1x256x1.rank)
  concatenates_S1x256x1_S1x256x1_S2x256x1_d0 : Shape.Concatenates [S1x256x1, S1x256x1] S2x256x1 0
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x256.size a ≤ S1x256.size a
  hwx0_0 : ∀ i : grid0.Coords, EltTy.bits .f32 = 32 ∨ (Rect.block (s := S1x256) S1x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S200000x256.size a
  hwx0_1 : ∀ i : grid0.Coords, EltTy.bits .f32 = 32 ∨ (Rect.block (s := S200000x256) S5000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S200000x256.size a
  hwx0_2 : ∀ i : grid0.Coords, EltTy.bits .f32 = 32 ∨ (Rect.block (s := S200000x256) S5000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S2x1x256.size a
  hwx0_3 : ∀ i : grid0.Coords, EltTy.bits .f32 = 32 ∨ (Rect.block (s := S2x1x256) S1x1x256.size (cc0_transform_3 i) (hinb0_3 i)).WholeWords (EltTy.packing .f32)

variable [Facts₀]

abbrev win0_0 : Pipeline.Window sig grid0 :=
  Pipeline.Window.ofSpec (Memref.whole main_v0) S1x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256 : Shape := ⟨1, ![256]⟩
abbrev S200000x256 : Shape := ⟨2, ![200000, 256]⟩
abbrev S256x1 : Shape := ⟨2, ![256, 1]⟩
abbrev S200000x1 : Shape := ⟨2, ![200000, 1]⟩
abbrev S_ : Shape := ⟨0, ![]⟩
abbrev S1x256 : Shape := ⟨2, ![1, 256]⟩
abbrev S1x256x1 : Shape := ⟨3, ![1, 256, 1]⟩
abbrev S2x256x1 : Shape := ⟨3, ![2, 256, 1]⟩

abbrev nBuf : Space → Nat
  | .hbm => 15
  | .vmem => 0
  | .smem => 0
  | _ => 0

abbrev bufTy : (tb : Table) → Fin (tcTables nBuf tb) → BufTy
  | .hbm, ⟨0, _⟩ => ⟨S256, .f32⟩
  | .hbm, ⟨1, _⟩ => ⟨S200000x256, .f32⟩
  | .hbm, ⟨2, _⟩ => ⟨S200000x256, .f32⟩
  | .hbm, ⟨3, _⟩ => ⟨S256x1, .f32⟩
  | .hbm, ⟨4, _⟩ => ⟨S200000x1, .f32⟩
  | .hbm, ⟨5, _⟩ => ⟨S200000x1, .f32⟩
  | .hbm, ⟨6, _⟩ => ⟨S200000x256, .f32⟩
  | .hbm, ⟨7, _⟩ => ⟨S200000x256, .f32⟩
  | .hbm, ⟨8, _⟩ => ⟨S_, .f32⟩
  | .hbm, ⟨9, _⟩ => ⟨S256, .f32⟩
  | .hbm, ⟨10, _⟩ => ⟨S1x256, .f32⟩
  | .hbm, ⟨11, _⟩ => ⟨S256x1, .f32⟩
  | .hbm, ⟨12, _⟩ => ⟨S1x256x1, .f32⟩
  | .hbm, ⟨13, _⟩ => ⟨S1x256x1, .f32⟩
  | .hbm, ⟨14, _⟩ => ⟨S2x256x1, .f32⟩
  | _, _ => ⟨S256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]

class Facts₀ : Prop where
  shapeCasts_S256_S256x1 : S256.ShapeCasts S256x1
  bcast_S200000x1_S200000x256_0_1 : S200000x1.BroadcastsInDim S200000x256 (![0, 1] : Fin 2 → Fin S200000x256.rank)
  reducesTo_S200000x256_S256_d0 : S200000x256.ReducesTo [0] S256
  h_S_ : 0 < S_.numel
  bcast_S256_S1x256_1 : S256.BroadcastsInDim S1x256 (![1] : Fin 1 → Fin S1x256.rank)
  transposes_S1x256_S256x1_1_0 : S1x256.Transposes [1, 0] S256x1
  bcast_S256x1_S1x256x1_1_2 : S256x1.BroadcastsInDim S1x256x1 (![1, 2] : Fin 2 → Fin S1x256x1.rank)
  concatenates_S1x256x1_S1x256x1_S2x256x1_d0 : Shape.Concatenates [S1x256x1, S1x256x1] S2x256x1 0
  dot_S200000x256_S256x1_S200000x1_1_0_0_1_n_n_wf : DotDims.WF S200000x256 S256x1 S200000x1 [1] [0] [0] [1] [] []

variable [Facts₀]

def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.Pieces.lean ====
/-
  What one grid point leaves behind, case by case.

  The body keeps a running row of 256 partial sums in a scratch buffer. At the first point of each half it
  stores the zero row and then adds the tile's contribution to it; at every other point it adds the tile's
  contribution to what the point before left; at the last point of each half it also copies the row, as a
  1 by 1 by 256 block, to the output. Each of these is one covering store, so what is left is that store's payload.
-/
import proofs.«419177_j67276367725290_4_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point of a half: the zero row plus the tile's contribution. -/
theorem scratch_A (c : Dev nD) (i : grid0.Coords) (arg2 : Memref sig .tc .vmem S1x256 .f32) (harg2 : arg2.IsWhole) (arg3 : Memref sig .tc .vmem S5000x256 .f32) (harg3 : arg3.IsWhole) (arg4 : Memref sig .tc .vmem S5000x256 .f32) (harg4 : arg4.IsWhole) (arg5 : Memref sig .tc .vmem S1x1x256 .f32) (harg5 : arg5.IsWhole) (arg6 : Memref sig .tc .vmem S1x256 .f32) (harg6 : arg6.IsWhole) (hc0 : cond0_0 i) (hc1 : ¬cond0_1 i)
    (x0 : Vec F S1x256 .f32) (x1 : Vec F S5000x256 .f32) (x2 : Vec F S5000x256 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x256) hz2]
  simp only [View.readAt_eq_ld, harg2.read_unread, harg3.read_unread, harg4.read_unread, harg6.read_unread,
    View.ld_unit_zero (S := S1x256) hz2, View.ld_unit_zero (S := S5000x256) hz2,
    View.readCov_unit_zero (S := S1x256) _ hz2]

/-- A middle point: the row the point before left plus the tile's contribution. -/
theorem scratch_B (c : Dev nD) (i : grid0.Coords) (arg2 : Memref sig .tc .vmem S1x256 .f32) (harg2 : arg2.IsWhole) (arg3 : Memref sig .tc .vmem S5000x256 .f32) (harg3 : arg3.IsWhole) (arg4 : Memref sig .tc .vmem S5000x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : ¬cond0_1 i)
    (x0 : Vec F S1x256 .f32) (x1 : Vec F S5000x256 .f32) (x2 : Vec F S5000x256 .f32) (xs0 : Vec F S1x256 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S1x256) hz2]
  simp only [View.readAt_eq_ld, harg2.read_unread, harg3.read_unread, harg4.read_unread, harg6.read_unread,
    View.ld_unit_zero (S := S1x256) hz2, View.ld_unit_zero (S := S5000x256) hz2,
    View.readCov_unit_zero (S := S1x256) _ hz2]

/-- The last point of a half leaves the same in the scratch row, -/
theorem scratch_C (c : Dev nD) (i : grid0.Coords) (arg2 : Memref sig .tc .vmem S1x256 .f32) (harg2 : arg2.IsWhole) (arg3 : Memref sig .tc .vmem S5000x256 .f32) (harg3 : arg3.IsWhole) (arg4 : Memref sig .tc .vmem S5000x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i)
    (x0 : Vec F S1x256 .f32) (x1 : Vec F S5000x256 .f32) (x2 : Vec F S5000x256 .f32) (xs0 : Vec F S1x256 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S1x256) hz2]
  simp only [View.readAt_eq_ld, harg2.read_unread, harg3.read_unread, harg4.read_unread, harg6.read_unread,
    View.ld_unit_zero (S := S1x256) hz2, View.ld_unit_zero (S := S5000x256) hz2,
    View.readCov_unit_zero (S := S1x256) _ hz2]

/-- and copies that row to the output block. -/
theorem out_C (c : Dev nD) (i : grid0.Coords) (arg2 : Memref sig .tc .vmem S1x256 .f32) (harg2 : arg2.IsWhole) (arg3 : Memref sig .tc .vmem S5000x256 .f32) (harg3 : arg3.IsWhole) (arg4 : Memref sig .tc .vmem S5000x256 .f32) (harg4 : arg4.IsWhole) (arg5 : Memref sig .tc .vmem S1x1x256 .f32) (harg5 : arg5.IsWhole) (arg6 : Memref sig .tc .vmem S1x256 .f32) (harg6 : arg6.IsWhole) (hc0 : ¬cond0_0 i) (hc1 : cond0_1 i)
    (x0 : Vec F S1x256 .f32) (x1 : Vec F S5000x256 .f32) (x2 : Vec F S5000x256 .f32) (xs0 : Vec F S1x256 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x1x256) hz3]
  simp only [View.readAt_eq_ld, harg2.read_unread, harg3.read_unread, harg4.read_unread, harg6.read_unread,
    View.ld_unit_zero (S := S1x256) hz2, View.ld_unit_zero (S := S5000x256) hz2,
    View.readCov_unit_zero (S := S1x256) _ hz2]

end Cert.KernelIdeal.Pieces

end
-- ==== Proof.Chain.lean ====
/-
  The running row across the grid.

  The forty points run in order; the points 0 and 20 open a half and start the running row afresh from the zero
  row, every other point continues from what the point before left. So after point n the scratch row is the
  accumulating payload of point n's blocks over either the zero row or the row after point n - 1: a recursion on n.
  At the points 19 and 39 the output block is a copy of that row.
-/
import proofs.«419177_j67276367725290_4_alg».proof.Proof.Pieces

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Pieces

variable {F : FTy → Type} [FloatOps F]
variable (m : (ℓ : Loc nD τ sig) → Buf (Elt F) ℓ)

/-- The three input blocks of point t, at their literal types. -/
abbrev ublk (c : Dev nD) (t : Fin cfg0.N) : Vec F S1x256 .f32 := iblk m c 0 t
abbrev kblk (c : Dev nD) (t : Fin cfg0.N) : Vec F S5000x256 .f32 := iblk m c 1 t
abbrev vblk (c : Dev nD) (t : Fin cfg0.N) : Vec F S5000x256 .f32 := iblk m c 2 t

/-- The running row after point n. -/
def acc (c : Dev nD) : (n : ℕ) → n < cfg0.N → Vec F S1x256 .f32
  | 0, h => k0_pay2 (ublk m c ⟨0, h⟩) (kblk m c ⟨0, h⟩) (vblk m c ⟨0, h⟩) (k0_pay1 (F := F))
  | n + 1, h => k0_pay2 (ublk m c ⟨n + 1, h⟩) (kblk m c ⟨n + 1, h⟩) (vblk m c ⟨n + 1, h⟩)
      (if (n + 1) % 20 = 0 then k0_pay1 (F := F) else acc c n (Nat.lt_of_succ_lt h))

theorem acc_zero (c : Dev nD) (h : 0 < cfg0.N) :
    acc m c 0 h = k0_pay2 (ublk m c ⟨0, h⟩) (kblk m c ⟨0, h⟩) (vblk m c ⟨0, h⟩) (k0_pay1 (F := F)) := rfl

theorem acc_succ (c : Dev nD) (n : ℕ) (h : n + 1 < cfg0.N) :
    acc m c (n + 1) h = k0_pay2 (ublk m c ⟨n + 1, h⟩) (kblk m c ⟨n + 1, h⟩) (vblk m c ⟨n + 1, h⟩)
      (if (n + 1) % 20 = 0 then k0_pay1 (F := F) else acc m c n (Nat.lt_of_succ_lt h)) := rfl

/-- What the scratch row holds after point n is the running row: by induction on the point. -/
theorem scratch_eq (c : Dev nD) : ∀ (n : ℕ) (h : n < cfg0.N), (outsAt0 m c n h).2 = acc m c n h
  | 0, h => by
    rw [outsAt0_A m c ⟨0, h⟩ rfl (show ¬(0 : ℕ) % 20 = 19 by decide)]
    dsimp only
    exact scratch_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) _ _ (iblk m c 0 ⟨0, h⟩) (iblk m c 1 ⟨0, h⟩) (iblk m c 2 ⟨0, h⟩)
  | n + 1, h => by
    by_cases h0 : (n + 1) % 20 = 0
    · have h1 : ¬(n + 1) % 20 = 19 := by omega
      rw [outsAt0_A m c ⟨n + 1, h⟩ h0 h1]
      dsimp only
      rw [acc_succ, if_pos h0]
      exact scratch_A c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩)
    · by_cases h1 : (n + 1) % 20 = 19
      · rw [outsAt0_C m c ⟨n + 1, h⟩ h0 h1]
        dsimp only
        rw [acc_succ, if_neg h0, ← scratch_eq c n (Nat.lt_of_succ_lt h)]
        exact scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (outsAt0 m c n (Nat.lt_of_succ_lt h)).2
      · rw [outsAt0_B m c ⟨n + 1, h⟩ h0 h1]
        dsimp only
        rw [acc_succ, if_neg h0, ← scratch_eq c n (Nat.lt_of_succ_lt h)]
        exact scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) _ _ (iblk m c 0 ⟨n + 1, h⟩) (iblk m c 1 ⟨n + 1, h⟩) (iblk m c 2 ⟨n + 1, h⟩) (outsAt0 m c n (Nat.lt_of_succ_lt h)).2

/-- At the last point of a half the output block is the running row, copied. -/
theorem out_eq (c : Dev nD) (t : Fin cfg0.N) (h1 : t.val % 20 = 19) :
    (outsAt0 m c t.val t.isLt).1 = k0_pay3 (acc m c t.val t.isLt) := by
  have h0 : ¬t.val % 20 = 0 := by omega
  obtain ⟨n, hn⟩ := t
  cases n with
  | zero => exact absurd h1 (show ¬(0 : ℕ) % 20 = 19 by decide)
  | succ n =>
    rw [outsAt0_C m c ⟨n + 1, hn⟩ h0 h1]
    dsimp only
    rw [acc_succ, if_neg h0, ← scratch_eq m c n (Nat.lt_of_succ_lt hn)]
    exact out_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _ (iblk m c 0 ⟨n + 1, hn⟩) (iblk m c 1 ⟨n + 1, hn⟩) (iblk m c 2 ⟨n + 1, hn⟩) (outsAt0 m c n (Nat.lt_of_succ_lt hn)).2

end Cert.KernelIdeal.Chain

end
-- ==== Proof.Blocks.lean ====
/-
  The input blocks at a grid point, read off the arrays.

  Point t of the forty stages rows 5000 t to 5000 t + 4999 of the keys and of the values (the block index of point
  (p, s) is 20 p + s, which is t itself), and the whole item row, which the program made from the item vector by a
  reshape before the call.
-/
import proofs.«419177_j67276367725290_4_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- Row r of point t's tile is row 5000 t + r of the array. -/
def rowOf (t : Fin cfg0.N) (r : Fin 5000) : Fin 200000 :=
  ⟨5000 * t.val + r.val, by have := t.isLt; have : cfg0.N = 40 := N_0; have := r.isLt; omega⟩

/-- The item row's block index never moves. -/
theorem idx_u : ∀ t : Fin cfg0.N, win0_0.index t 0 = 0 ∧ win0_0.index t 1 = 0 :=
  (by decide +kernel : ∀ t : Fin grid0.N, win0_0.index t 0 = 0 ∧ win0_0.index t 1 = 0)
/-- The keys' block index at point t is (t, 0). -/
theorem idx_k : ∀ t : Fin cfg0.N, win0_1.index t 0 = t.val ∧ win0_1.index t 1 = 0 :=
  (by decide +kernel : ∀ t : Fin grid0.N, win0_1.index t 0 = t.val ∧ win0_1.index t 1 = 0)
/-- The values' likewise. -/
theorem idx_v : ∀ t : Fin cfg0.N, win0_2.index t 0 = t.val ∧ win0_2.index t 1 = 0 :=
  (by decide +kernel : ∀ t : Fin grid0.N, win0_2.index t 0 = t.val ∧ win0_2.index t 1 = 0)

/-- The item row the region finds is the item vector reshaped. -/
theorem V_row (c : Dev nD) :
    (V m c main_v0 : S1x256.Idx → Elt F .f32) = shapeCast S1x256 (m ((c : Thread nD τ).loc main_arg0)) shapeCasts_S256_S1x256 := by
  show StableHlo.after hostOps0 (fun b => m (c, b)) (Proc.devRef .tc main_v0) = _
  after_results
  rfl

/-- The item row's block is the whole row. -/
theorem ublk_apply (c : Dev nD) (t : Fin cfg0.N) (j : Fin 256) :
    (iblk m c 0 t : Vec F S1x256 .f32) (ix2 (0 : Fin 1) j) = (V m c main_v0 : S1x256.Idx → Elt F .f32) (ix2 (0 : Fin 1) j) := by
  have hi := idx_u t
  unfold iblk
  rw [View.read_apply]
  show V m c main_v0 _ = V m c main_v0 _
  congr 1
  funext a
  apply Fin.ext
  match a with
  | ⟨0, _⟩ => show win0_0.index t 0 * 1 + 1 * 0 = 0; rw [hi.1]
  | ⟨1, _⟩ => show win0_0.index t 1 * 256 + 1 * j.val = j.val; rw [hi.2]; omega

/-- The keys' block at point t, row r, column j is the array at row 5000 t + r, column j. -/
theorem kblk_apply (c : Dev nD) (t : Fin cfg0.N) (r : Fin 5000) (j : Fin 256) :
    (iblk m c 1 t : Vec F S5000x256 .f32) (ix2 r j) = (V m c main_arg1 : S200000x256.Idx → Elt F .f32) (ix2 (rowOf t r) j) := by
  have hi := idx_k t
  unfold iblk
  rw [View.read_apply]
  show V m c main_arg1 _ = V m c main_arg1 _
  congr 1
  funext a
  apply Fin.ext
  match a with
  | ⟨0, _⟩ => show win0_1.index t 0 * 5000 + 1 * r.val = 5000 * t.val + r.val; rw [hi.1]; omega
  | ⟨1, _⟩ => show win0_1.index t 1 * 256 + 1 * j.val = j.val; rw [hi.2]; omega

/-- The values' block likewise. -/
theorem vblk_apply (c : Dev nD) (t : Fin cfg0.N) (r : Fin 5000) (j : Fin 256) :
    (iblk m c 2 t : Vec F S5000x256 .f32) (ix2 r j) = (V m c main_arg2 : S200000x256.Idx → Elt F .f32) (ix2 (rowOf t r) j) := by
  have hi := idx_v t
  unfold iblk
  rw [View.read_apply]
  show V m c main_arg2 _ = V m c main_arg2 _
  congr 1
  funext a
  apply Fin.ext
  match a with
  | ⟨0, _⟩ => show win0_2.index t 0 * 5000 + 1 * r.val = 5000 * t.val + r.val; rw [hi.1]; omega
  | ⟨1, _⟩ => show win0_2.index t 1 * 256 + 1 * j.val = j.val; rw [hi.2]; omega

end Cert.KernelIdeal.Blocks

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.Payload.lean ====
/-
  The body's arithmetic, read at one column.

  Given the item row x0 (1 by 256), a tile of 5000 key rows x1 and value rows x2, and the running row acc,
  the body computes, at column d,
      acc d + the sum over the tile's rows r of exp (the sum over columns j of x1 r j * x0 j) * x2 r d :
  a lane sum per row, cast to a column, exponentiated, broadcast over the columns, multiplied into the value rows,
  summed down the rows, cast back to a row and added to the running row. Both lane sums start from the zero word and
  so are plain sums. The stored zero row is 0 at every column, and the copy to the output block reads the row back.
-/
import proofs.«419177_j67276367725290_4_alg».proof.Proof.Gen.KernelIdeal.Skeleton
import proofs.«419177_j67276367725290_4_alg».proof.Proof.LibColumn
import proofs.«419177_j67276367725290_4_alg».proof.Proof.LibRowRead
import Idealize.ShloMosaic.PureOps.Ideal.Laws
import Idealize.ShloMosaic.Lib.Pipeline.Value
import Idealize.ShloMosaic.Lib.ValueIdx

noncomputable section

namespace Cert.KernelIdeal.Payload

open Idealize.ShloMosaic Idealize.ShloMosaic.ValueIdx Cert.KernelIdeal Cert.KernelIdeal.Gen

variable {R C : ℕ} {φ : FTy} {α : Type}

/-- The reduced index d with row r put back is (r, d). -/
theorem lift_col (h : (⟨2, ![R, C]⟩ : Shape).Reduces [0] (⟨1, ![C]⟩ : Shape)) (d : Fin C)
    (k : Fin ((⟨2, ![R, C]⟩ : Shape).size 0)) : h.lift (ix1 d) k = ix2 (⟨k.val, k.isLt⟩ : Fin R) d := by
  funext c; apply Fin.ext
  fin_cases c <;> rfl

/-- A sum down the rows, at column d. -/
theorem colSum_apply (src : FVec Ideal (⟨2, ![R, C]⟩ : Shape) φ) (acc : BitVec φ.bits)
    (h : (⟨2, ![R, C]⟩ : Shape).Reduces [0] (⟨1, ![C]⟩ : Shape)) (hφ : FKind.Formats φ)
    (hacc : acc = FKind.add.neutral φ hφ) (d : Fin C) :
    multiReduction .add [0] (⟨1, ![C]⟩ : Shape) src acc h hφ hacc (ix1 d) = ∑ r : Fin R, src (ix2 r d) := by
  rw [Ideal.multiReduction_add_single]
  exact Finset.sum_congr rfl fun k _ => congrArg src (lift_col h d k)

/-- The f32 sum from the zero word, its side proofs typed as the program spells them. -/
theorem colSum_f32 (src : FVec Ideal (⟨2, ![R, C]⟩ : Shape) .f32)
    (h : (⟨2, ![R, C]⟩ : Shape).Reduces [0] (⟨1, ![C]⟩ : Shape)) (hφ : FKind.Formats .f32)
    (hacc : (0x00000000#32 : BitVec 32) = 0x00000000#32) (d : Fin C) :
    multiReduction .add [0] (⟨1, ![C]⟩ : Shape) src 0x00000000#32 h hφ hacc (ix1 d) = ∑ r : Fin R, src (ix2 r d) :=
  colSum_apply src _ h hφ hacc d

/-- A vector of C entries cast to the row [1, C] reads, at (0, d), the vector at d. -/
theorem row_of_vec (x : (⟨1, ![C]⟩ : Shape).Idx → α) (h : (⟨1, ![C]⟩ : Shape).ShapeCasts ⟨2, ![1, C]⟩) (d : Fin C) :
    shapeCast ⟨2, ![1, C]⟩ x h (ix2 (0 : Fin 1) d) = x (ix1 d) :=
  shapeCast_apply x h _ _ (by
    rw [Shape.rowMajor_val_two, Shape.rowMajor_val_one]
    show d.val = 0 * C + d.val
    omega)

/-- A row [1, C] broadcast over R rows reads, at (r, j), the row at j. -/
theorem bcast_row (v : (⟨2, ![1, C]⟩ : Shape).Idx → α) (h : (⟨2, ![1, C]⟩ : Shape).Broadcasts ⟨2, ![R, C]⟩)
    (r : Fin R) (j : Fin C) : broadcastTo ⟨2, ![R, C]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if C = 1 then 0 else j.val
    split
    · have := j.isLt; omega
    · rfl

/-- A row [1, C] cast to the block [1, 1, C] reads, at (0, 0, d), the row at (0, d). -/
theorem block_of_row (x : (⟨2, ![1, C]⟩ : Shape).Idx → α) (h : (⟨2, ![1, C]⟩ : Shape).ShapeCasts ⟨3, ![1, 1, C]⟩) (d : Fin C) :
    shapeCast ⟨3, ![1, 1, C]⟩ x h (ix3 (0 : Fin 1) (0 : Fin 1) d) = x (ix2 (0 : Fin 1) d) :=
  shapeCast_apply x h _ _ (by
    rw [Shape.rowMajor_val_three, Shape.rowMajor_val_two]
    show 0 * C + d.val = (0 * 1 + 0) * C + d.val
    omega)

/-- The tile's contribution to column d. -/
def tile (x0 : Vec Ideal S1x256 .f32) (x1 x2 : Vec Ideal S5000x256 .f32) (d : Fin 256) : EReal :=
  ∑ r : Fin 5000, Ideal.exp (∑ j : Fin 256, x1 (ix2 r j) * x0 (ix2 (0 : Fin 1) j)) * x2 (ix2 r d)

/-- The accumulating store's payload at column d: the running row there plus the tile's contribution. -/
theorem pay2_apply (x0 : Vec Ideal S1x256 .f32) (x1 x2 : Vec Ideal S5000x256 .f32) (acc : Vec Ideal S1x256 .f32) (d : Fin 256) :
    k0_pay2 (F := Ideal) x0 x1 x2 acc (ix2 (0 : Fin 1) d) = acc (ix2 (0 : Fin 1) d) + tile x0 x1 x2 d := by
  unfold k0_pay2 tile
  simp only [shapeCast_self]
  show acc (ix2 (0 : Fin 1) d) + shapeCast S1x256 _ shapeCasts_S256_S1x256 (ix2 (0 : Fin 1) d) = _
  rw [row_of_vec, colSum_f32]
  refine congrArg (acc (ix2 (0 : Fin 1) d) + ·) (Finset.sum_congr rfl fun r _ => ?_)
  show broadcastTo S5000x256 _ broadcasts_S5000x1_S5000x256 (ix2 r d) * x2 (ix2 r d) = _
  rw [Idealize.ShloMosaic.Column.broadcastTo_a1_ab_apply]
  show Ideal.exp (shapeCast S5000x1 _ shapeCasts_S5000_S5000x1 (ix2 r (0 : Fin 1))) * _ = _
  rw [Idealize.ShloMosaic.Column.shapeCast_a_a1_apply, Cert.RowRead.rowSum_f32]
  refine congrArg (fun s => Ideal.exp s * x2 (ix2 r d)) (Finset.sum_congr rfl fun j _ => ?_)
  show x1 (ix2 r j) * broadcastTo S5000x256 x0 broadcasts_S1x256_S5000x256 (ix2 r j) = _
  rw [bcast_row]

/-- The zero row is 0 at every column. -/
theorem pay1_apply (i : S1x256.Idx) : k0_pay1 (F := Ideal) i = 0 := by
  unfold k0_pay1
  simp only [shapeCast_self]
  show Ideal.ofBits .f32 0x00000000#32 = 0
  exact Ideal.ofBits_zero_f32

/-- The copy to the output block reads the row back. -/
theorem pay3_apply (v : Vec Ideal S1x256 .f32) (d : Fin 256) :
    k0_pay3 (F := Ideal) v (ix3 (0 : Fin 1) (0 : Fin 1) d) = v (ix2 (0 : Fin 1) d) := by
  unfold k0_pay3
  exact block_of_row v shapeCasts_S1x256_S1x1x256 d

end Cert.KernelIdeal.Payload

end
-- ==== Proof.Spec.lean ====
/-
  The function both programs compute, and the one law that joins their two arrangements of it.

  For an item vector u of 256 entries and memories K, V of 200000 rows by 256 columns, the second half of the
  result at column d is the sum over every row k of exp (K k · u) * V k d, where K k · u is the sum over the
  256 columns j of K k j * u j. The extended reals under addition are a commutative monoid, so the sum may
  be taken in any grouping: here, as forty consecutive stretches of 5000 rows, twenty to each half.
-/
import Idealize.ShloMosaic.PureOps.Ideal.Laws
import Idealize.ShloMosaic.Lib.ValueIdx

noncomputable section

namespace Cert.Spec

open Idealize.ShloMosaic Idealize.ShloMosaic.ValueIdx

abbrev SU : Shape := ⟨1, ![256]⟩
abbrev SM : Shape := ⟨2, ![200000, 256]⟩

variable (u : SU.Idx → EReal) (K V : SM.Idx → EReal)

/-- Row k's score: the inner product of the row with the item vector. -/
def score (k : Fin 200000) : EReal := ∑ j : Fin 256, K (ix2 k j) * u (ix1 j)

/-- Row k's contribution to column d. -/
def term (d : Fin 256) (k : Fin 200000) : EReal := Ideal.exp (score u K k) * V (ix2 k d)

/-- Column d of the weighted sum of the value rows. -/
def total (d : Fin 256) : EReal := ∑ k : Fin 200000, term u K V d k

/-- The weighted sum laid out as a column of 256 entries. -/
def column : (⟨2, ![256, 1]⟩ : Shape).Idx → EReal := fun i => total u K V ⟨(i 0).val, (i 0).isLt⟩

/-- The contributions as a sequence indexed by the naturals, zero past the last row. -/
def termN (d : Fin 256) (i : ℕ) : EReal := if h : i < 200000 then term u K V d ⟨i, h⟩ else 0

theorem termN_of_lt (d : Fin 256) (i : ℕ) (h : i < 200000) : termN u K V d i = term u K V d ⟨i, h⟩ := dif_pos h

/-- The total is the sum of the sequence over its first 200000 entries. -/
theorem total_eq_range (d : Fin 256) : total u K V d = ∑ i ∈ Finset.range 200000, termN u K V d i := by
  rw [Finset.sum_range]
  exact Finset.sum_congr rfl fun k _ => (termN_of_lt u K V d k.val k.isLt).symm

/-- A stretch of 5000 consecutive entries starting at 5000 t, summed entry by entry, is the sum over that interval. -/
theorem stretch_eq_Ico (d : Fin 256) (t : ℕ) :
    ∑ r : Fin 5000, termN u K V d (5000 * t + r.val) = ∑ i ∈ Finset.Ico (5000 * t) (5000 * (t + 1)), termN u K V d i := by
  rw [Finset.sum_Ico_eq_sum_range, show 5000 * (t + 1) - 5000 * t = 5000 by omega, Finset.sum_range]

/-- Two adjacent intervals sum to their union. -/
theorem Ico_step (d : Fin 256) (a t : ℕ) (h : a ≤ 5000 * t) :
    ∑ i ∈ Finset.Ico a (5000 * t), termN u K V d i + ∑ i ∈ Finset.Ico (5000 * t) (5000 * (t + 1)), termN u K V d i
      = ∑ i ∈ Finset.Ico a (5000 * (t + 1)), termN u K V d i :=
  Finset.sum_Ico_consecutive _ h (by omega)

/-- The two halves together are everything. -/
theorem halves (d : Fin 256) :
    ∑ i ∈ Finset.Ico 0 100000, termN u K V d i + ∑ i ∈ Finset.Ico 100000 200000, termN u K V d i = total u K V d := by
  rw [total_eq_range, Finset.sum_Ico_consecutive _ (by omega) (by omega), Finset.range_eq_Ico]

end Cert.Spec

end
-- ==== Proof.Closed.lean ====
/-
  The running row in closed form, over the extended reals.

  Point t's tile contributes, at column d, the terms of the specification's sequence at the positions 5000 t to
  5000 t + 4999: the tile's rows are those rows of the keys and of the values, and the item row is the item vector.
  So after point n the running row at column d is the sum of the sequence from the start of n's half, 100000 (n / 20),
  up to 5000 (n + 1): the zero row plus the first stretch at the start of a half, one more adjacent stretch per point
  after it.
-/
import proofs.«419177_j67276367725290_4_alg».proof.Proof.Chain
import proofs.«419177_j67276367725290_4_alg».proof.Proof.Blocks
import proofs.«419177_j67276367725290_4_alg».proof.Proof.Payload
import proofs.«419177_j67276367725290_4_alg».proof.Proof.Spec

noncomputable section

open Idealize.ShloMosaic Idealize.ShloMosaic.TcCoe Idealize.SL.Sem Idealize.ShloMosaic.ValueIdx

namespace Cert.KernelIdeal.Closed

open Cert.KernelIdeal Cert.KernelIdeal.Gen Cert.KernelIdeal.Chain Cert.KernelIdeal.Blocks Cert.KernelIdeal.Payload

variable (m : (ℓ : Loc nD τ sig) → Buf (Elt Ideal) ℓ)

/-- The three argument arrays as the specification takes them. -/
abbrev uArr (c : Dev nD) : Cert.Spec.SU.Idx → EReal := m ((c : Thread nD τ).loc main_arg0)
abbrev kArr (c : Dev nD) : Cert.Spec.SM.Idx → EReal := m ((c : Thread nD τ).loc main_arg1)
abbrev vArr (c : Dev nD) : Cert.Spec.SM.Idx → EReal := m ((c : Thread nD τ).loc main_arg2)

/-- The sequence of contributions to column d. -/
abbrev seq (c : Dev nD) (d : Fin 256) : ℕ → EReal := Cert.Spec.termN (uArr m c) (kArr m c) (vArr m c) d

/-- Point t's tile contributes the sequence's stretch at 5000 t. -/
theorem tile_eq (c : Dev nD) (t : Fin cfg0.N) (d : Fin 256) :
    tile (ublk m c t) (kblk m c t) (vblk m c t) d = ∑ r : Fin 5000, seq m c d (5000 * t.val + r.val) := by
  unfold tile
  refine Finset.sum_congr rfl fun r _ => ?_
  show _ = Cert.Spec.termN (uArr m c) (kArr m c) (vArr m c) d (rowOf t r).val
  rw [Cert.Spec.termN_of_lt _ _ _ d _ (rowOf t r).isLt]
  unfold Cert.Spec.term Cert.Spec.score
  have hv : vblk m c t (ix2 r d) = vArr m c (ix2 ⟨(rowOf t r).val, (rowOf t r).isLt⟩ d) :=
    (vblk_apply m c t r d).trans (congrFun (V_main_arg2 m c) _)
  have hk : ∀ j, kblk m c t (ix2 r j) = kArr m c (ix2 ⟨(rowOf t r).val, (rowOf t r).isLt⟩ j) := fun j =>
    (kblk_apply m c t r j).trans (congrFun (V_main_arg1 m c) _)
  have hu : ∀ j, ublk m c t (ix2 (0 : Fin 1) j) = uArr m c (ix1 j) := fun j =>
    (ublk_apply m c t j).trans ((congrFun (V_row m c) _).trans (row_of_vec _ _ j))
  rw [hv]
  refine congrArg (fun s => Ideal.exp s * vArr m c (ix2 ⟨(rowOf t r).val, (rowOf t r).isLt⟩ d)) (Finset.sum_congr rfl fun j _ => ?_)
  rw [hk j, hu j]

/-- The running row after point n, at column d. -/
theorem acc_apply (c : Dev nD) : ∀ (n : ℕ) (h : n < cfg0.N) (d : Fin 256),
    acc m c n h (ix2 (0 : Fin 1) d) = ∑ i ∈ Finset.Ico (100000 * (n / 20)) (5000 * (n + 1)), seq m c d i
  | 0, h, d => by
    rw [acc_zero, pay2_apply, pay1_apply, zero_add, tile_eq]
    exact Cert.Spec.stretch_eq_Ico _ _ _ d 0
  | n + 1, h, d => by
    rw [acc_succ, pay2_apply, tile_eq]
    show _ + ∑ r : Fin 5000, seq m c d (5000 * (n + 1) + r.val) = _
    rw [Cert.Spec.stretch_eq_Ico]
    by_cases h0 : (n + 1) % 20 = 0
    · rw [if_pos h0, pay1_apply, zero_add, show 100000 * ((n + 1) / 20) = 5000 * (n + 1) by omega]
    · rw [if_neg h0, acc_apply c n _ d, show 100000 * ((n + 1) / 20) = 100000 * (n / 20) by omega]
      exact Cert.Spec.Ico_step _ _ _ d (100000 * (n / 20)) (n + 1) (by omega)

end Cert.KernelIdeal.Closed

end
-- ==== Proof.Final.lean ====
/-
  The array of the two halves' sums.

  The output window's block index is the half, p = t / 20; its block is written back after the points 19 and 39 only,
  and what is written back is the running row after that point: the sum of the sequence over the whole half,
  from 100000 p to 100000 (p + 1). The two blocks tile the [2, 1, 256] array, so after the region entry (p, 0, d)
  of the array is half p's sum for column d.
-/
import proofs.«419177_j67276367725290_4_alg».proof.Proof.Closed

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Chain Cert.KernelIdeal.Payload Cert.KernelIdeal.Closed

variable (m : (ℓ : Loc nD τ sig) → Buf (Elt Ideal) ℓ)

/-- Entry (p, 0, d) of the array after the region: half p's sum for column d. -/
def halfSums (c : Dev nD) : S2x1x256.Idx → EReal := fun i =>
  ∑ k ∈ Finset.Ico (100000 * (i 0).val) (100000 * ((i 0).val + 1)), seq m c ⟨(i 2).val, (i 2).isLt⟩ k

/-- The output's block index at point t is (t / 20, 0, 0). -/
theorem idx_o : ∀ t : Fin cfg0.N, win0_3.index t 0 = t.val / 20 ∧ win0_3.index t 1 = 0 ∧ win0_3.index t 2 = 0 :=
  (by decide +kernel : ∀ t : Fin grid0.N, win0_3.index t 0 = t.val / 20 ∧ win0_3.index t 1 = 0 ∧ win0_3.index t 2 = 0)

/-- The copied row read at any index of the block. -/
theorem pay3_at (v : Vec Ideal S1x256 .f32) (y : S1x1x256.Idx) :
    k0_pay3 (F := Ideal) v y = v (ix2 (0 : Fin 1) (⟨(y 2).val, (y 2).isLt⟩ : Fin 256)) := by
  have e : y = ix3 (0 : Fin 1) (0 : Fin 1) (⟨(y 2).val, (y 2).isLt⟩ : Fin 256) := by
    funext a; apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => rfl
  rw [e]
  exact pay3_apply v _

/-- What a flushing point writes back is its block of the array of half sums. -/
theorem flushed_eq (c : Dev nD) (t : Fin cfg0.N) (hf : (cfg0.win 3).flush t = true) :
    (dats m 0 c).flushed 3 t = ((cfg0.win 3).blk t).view.read (Elt Ideal) (halfSums m c) := by
  have h19 : t.val % 20 = 19 := (flush0_3 t).mp hf
  have hN : t.val < 40 := lt_of_lt_of_eq t.isLt (show cfg0.N = 40 from N_0)
  obtain ⟨i0, i1, i2⟩ := idx_o t
  show (cfg0.win 3).cut (grid0.coords t) ((dats m 0 c).after 3 t) = _
  rw [after0_3, out_eq m c t h19]
  funext y
  rw [View.read_apply]
  show k0_pay3 (F := Ideal) (acc m c t.val t.isLt) y = halfSums m c (((cfg0.win 3).blk t).view.emb y)
  rw [pay3_at, acc_apply]
  have he : ((cfg0.win 3).blk t).view.emb y
      = ix3 (⟨t.val / 20, by omega⟩ : Fin 2) (0 : Fin 1) (⟨(y 2).val, (y 2).isLt⟩ : Fin 256) := by
    funext a; apply Fin.ext
    match a with
    | ⟨0, _⟩ => have h : (y 0).val < 1 := (y 0).isLt; show win0_3.index t 0 * 1 + 1 * (y 0).val = t.val / 20; rw [i0]; omega
    | ⟨1, _⟩ => have h : (y 1).val < 1 := (y 1).isLt; show win0_3.index t 1 * 1 + 1 * (y 1).val = 0; rw [i1]; omega
    | ⟨2, _⟩ => show win0_3.index t 2 * 256 + 1 * (y 2).val = (y 2).val; rw [i2]; omega
  rw [he]
  show _ = ∑ k ∈ Finset.Ico (100000 * (t.val / 20)) (100000 * (t.val / 20 + 1)), seq m c ⟨(y 2).val, (y 2).isLt⟩ k
  rw [show 5000 * (t.val + 1) = 100000 * (t.val / 20 + 1) by omega]

/-- Every index of the array is in the block of its half's last point. -/
theorem cover (i : S2x1x256.Idx) :
    ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 256 := (i 2).isLt
  have hN : cfg0.N = 40 := N_0
  let t : Fin cfg0.N := ⟨20 * (i 0).val + 19, by omega⟩
  have ht : t.val = 20 * (i 0).val + 19 := rfl
  obtain ⟨i0, i1, i2⟩ := idx_o t
  refine ⟨t, (flush0_3 t).mpr (by omega), ?_⟩
  show i ∈ ((View.whole main_v1).slice (win0_3.rect t)).set
  rw [View.set_slice_whole, Rect.mem_set_unit]
  intro a
  match a with
  | ⟨0, _⟩ =>
    show win0_3.index t 0 * 1 ≤ (i 0).val ∧ (i 0).val < win0_3.index t 0 * 1 + 1
    rw [i0]; omega
  | ⟨1, _⟩ =>
    show win0_3.index t 1 * 1 ≤ (i 1).val ∧ (i 1).val < win0_3.index t 1 * 1 + 1
    rw [i1]; omega
  | ⟨2, _⟩ =>
    show win0_3.index t 2 * 256 ≤ (i 2).val ∧ (i 2).val < win0_3.index t 2 * 256 + 256
    rw [i2]; omega

/-- So the array ends holding the half sums. -/
theorem final_o (c : Dev nD) : (dats m 0 c).arrAt 3 cfg0.N = halfSums m c :=
  (dats m 0 c).arrAt_eq_of_cover 3 (halfSums m c) (flushed_eq m c) (cover)

end Cert.KernelIdeal.Final

end
-- ==== Proof.Tail.lean ====
/-
  The lines after the call.

  After the call the program sums the [2, 1, 256] array of half sums over its first two axes, from the zero word, lays
  the 256 sums out as a column, and stacks it under the item vector laid out as a column. At row d the summed column
  is half 0's sum plus half 1's sum for column d: the specification's total.
-/
import proofs.«419177_j67276367725290_4_alg».proof.Proof.Final
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Closed Cert.KernelIdeal.Final

/-- The column the tail makes of an array of partial sums. -/
def kcol (A : S2x1x256.Idx → Ideal .f32) : S256x1.Idx → Ideal .f32 :=
  shapeCast S256x1 (shapeCast S1x256 (broadcastInDim S1x1x256 ![2] bcast_S256_S1x1x256_2
    (Host.reduceAdd (F := Ideal) A (constant (F := Ideal) S_ .f32 0x00000000#32) reducesTo_S2x1x256_S256_d0_1 h_S_))
    shapeCasts_S1x1x256_S1x256) shapeCasts_S1x256_S256x1

/-- The program's result from the item vector and a column. -/
def stack (a0 : S256.Idx → Ideal .f32) (col : S256x1.Idx → Ideal .f32) : S2x256x1.Idx → Ideal .f32 :=
  concatenate S2x256x1 0 [⟨S1x256x1, broadcastInDim S1x256x1 ![1, 2] bcast_S256x1_S1x256x1_1_2 (shapeCast S256x1 a0 shapeCasts_S256_S256x1)⟩,
    ⟨S1x256x1, broadcastInDim S1x256x1 ![1, 2] bcast_S256x1_S1x256x1_1_2 col⟩] concatenates_S1x256x1_S1x256x1_S2x256x1_d0

variable (m : (ℓ : Loc nD τ sig) → Buf (Elt Ideal) ℓ)

/-- The buffers as the region leaves them. -/
abbrev left (c : Dev nD) : Valuation τ sig (Elt Ideal) :=
  Pipeline.withArrays (cfgs 0).spec c (V0 m c) (fun w => (dats m 0 c).arrAt w (cfgs 0).N)

/-- The result buffer after the tail, over what the region leaves. -/
theorem tail_raw (c : Dev nD) :
    Pipeline.afterTail₀ cfgs (dats m) 0 (V0 m) [hostOps1] c main_v9
      = stack (left m c (Proc.devRef .tc main_arg0)) (kcol (left m c (Proc.devRef .tc main_v1))) := by
  unfold Pipeline.afterTail₀
  show StableHlo.after hostOps1 _ (Proc.devRef .tc main_v9) = _
  after_results
  rfl

/-- The region leaves the item vector as launched, -/
theorem left_arg0 (c : Dev nD) : left m c (Proc.devRef .tc main_arg0) = m ((c : Thread nD τ).loc main_arg0) :=
  (Pipeline.withArrays_of_ne _ c (V0 m c) _ main_arg0 (by exact (by decide : ∀ w, Pipeline.arrRef spec0 w ≠ main_arg0))).trans
    (V_main_arg0 m c)

/-- and the output array at the half sums. -/
theorem left_v1 (c : Dev nD) : left m c (Proc.devRef .tc main_v1) = halfSums m c :=
  (Pipeline.withArrays_arr spec0 launch0.win.arr_inj c _ _ 3).trans (final_o m c)

/-- A row [1, C] cast to the column [C, 1] reads, at (d, z), the row at (0, d). -/
theorem col_of_row {α : Type} (x : (⟨2, ![1, 256]⟩ : Shape).Idx → α) (h : (⟨2, ![1, 256]⟩ : Shape).ShapeCasts ⟨2, ![256, 1]⟩)
    (d : Fin 256) (z : Fin 1) : shapeCast ⟨2, ![256, 1]⟩ x h (ix2 d z) = x (ix2 (0 : Fin 1) d) :=
  shapeCast_apply x h _ _ (by
    rw [Shape.rowMajor_val_two, Shape.rowMajor_val_two]
    have hz : z.val = 0 := by omega
    show 0 * 256 + d.val = d.val * 1 + z.val
    omega)

/-- A vector of 256 entries broadcast along the last axis of [1, 1, 256] reads, at (a, b, d), the vector at d. -/
theorem bcast_lane {α : Type} (x : (⟨1, ![256]⟩ : Shape).Idx → α)
    (h : (⟨1, ![256]⟩ : Shape).BroadcastsInDim ⟨3, ![1, 1, 256]⟩ (![2] : Fin 1 → Fin 3)) (a b : Fin 1) (d : Fin 256) :
    broadcastInDim ⟨3, ![1, 1, 256]⟩ ![2] h x (ix3 a b d) = x (ix1 d) :=
  broadcastInDim_apply _ h x _ (ix1 d) (fun ax => match ax with
    | ⟨0, _⟩ => by show d.val = if (256 : Nat) = 1 then 0 else d.val; rw [if_neg (by decide)])

/-- Dropping the first two axes of (p, z, d) leaves d. -/
theorem drop_ix3 (p : Fin 2) (z : Fin 1) (d : Fin 256) : reducesTo_S2x1x256_S256_d0_1.drop (ix3 p z d) = ix1 d := by
  funext b
  match b with
  | ⟨0, _⟩ => rfl

/-- The two indices that drop to d. -/
def halfEmb (d : Fin 256) : Fin 2 ↪ S2x1x256.Idx :=
  ⟨fun p => ix3 p (0 : Fin 1) d, fun p p' h => by have := congrFun h 0; exact this⟩

theorem filter_drop (d : Fin 256) :
    Finset.univ.filter (fun i : S2x1x256.Idx => reducesTo_S2x1x256_S256_d0_1.drop i = ix1 d) = Finset.univ.map (halfEmb d) := by
  ext i
  simp only [Finset.mem_filter, Finset.mem_univ, true_and, Finset.mem_map, halfEmb, Function.Embedding.coeFn_mk]
  constructor
  · intro h
    refine ⟨i 0, ?_⟩
    have h2 : (reducesTo_S2x1x256_S256_d0_1.drop i) 0 = (ix1 d : S256.Idx) 0 := congrFun h 0
    funext a; apply Fin.ext
    match a with
    | ⟨0, _⟩ => rfl
    | ⟨1, _⟩ => have h1 : (i 1).val < 1 := (i 1).isLt; show 0 = (i 1).val; omega
    | ⟨2, _⟩ => exact (congrArg Fin.val h2).symm
  · rintro ⟨p, rfl⟩
    exact drop_ix3 p 0 d

/-- The tail's column of the half sums is the specification's column. -/
theorem kcol_eq (c : Dev nD) : kcol (halfSums m c) = Cert.Spec.column (uArr m c) (kArr m c) (vArr m c) := by
  funext i
  obtain ⟨d, z, rfl⟩ : ∃ (d : Fin 256) (z : Fin 1), i = ix2 d z := ⟨i 0, i 1, eq_ix2 i⟩
  unfold kcol
  rw [col_of_row, Cert.RowRead.squeeze_apply, bcast_lane]
  simp only [Host.reduceAdd, Ideal.hostReduceAdd_def]
  unfold Ideal.hostReduceAdd
  rw [filter_drop d, Finset.sum_map, Fin.sum_univ_two]
  show Ideal.ofBits .f32 0x00000000#32 + (halfSums m c (ix3 (0 : Fin 2) (0 : Fin 1) d) + halfSums m c (ix3 (1 : Fin 2) (0 : Fin 1) d)) = _
  rw [Ideal.ofBits_zero_f32, zero_add]
  exact Cert.Spec.halves (uArr m c) (kArr m c) (vArr m c) d

/-- The result buffer after the tail: the item vector as a column over the specification's column. -/
theorem tail_eq (c : Dev nD) :
    Pipeline.afterTail₀ cfgs (dats m) 0 (V0 m) [hostOps1] c main_v9
      = stack (m ((c : Thread nD τ).loc main_arg0)) (Cert.Spec.column (uArr m c) (kArr m c) (vArr m c)) := by
  rw [tail_raw, left_arg0, left_v1, kcol_eq]

end Cert.KernelIdeal.Tail

end
-- ==== Proof.KernelRun.lean ====
/-
  The idealized kernel's run, read.

  Every weakly fair execution ends with the result buffer holding the item vector as a column stacked over the
  specification's column of the launch contents, and the three arguments as launched: the generated frame run,
  with its post read through the tail.
-/
import proofs.«419177_j67276367725290_4_alg».proof.Proof.Tail

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Closed Cert.KernelIdeal.Tail

variable (m : (ℓ : Loc nD τ sig) → Buf (Elt Ideal) ℓ) (ρ : Dev nD → PrngReg)

/-- What the result buffer ends holding. -/
abbrev result (c : Dev nD) : Buf (Elt Ideal) ((c : Thread nD τ).loc main_v9) :=
  stack (m ((c : Thread nD τ).loc main_arg0)) (Cert.Spec.column (uArr m c) (kArr m c) (vArr m c))

theorem run : θ_run defs (onTc (τ := τ) (main (F := Ideal))) ⟨m, fun _ => 0, ρ⟩ (fun r => ∀ c : Dev nD,
      r.2.mem ((c.tc : Thread nD τ).loc main_v9) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Result

end
-- ==== Proof.RefValue.lean ====
/-
  The reference, read entry by entry.

  The reference forms every row's score by one matrix-vector product, exponentiates, scales the value rows and
  sums over all 200000 rows at once; the column it then lays out is, at row d, the total of the specification:
  the host's sum starts from the zero word, which is the extended real 0.
-/
import proofs.«419177_j67276367725290_4_alg».proof.Proof.Gen.ReferenceIdeal.Read
import proofs.«419177_j67276367725290_4_alg».proof.Proof.Spec

noncomputable section

namespace Cert.RefValue

open Idealize.ShloMosaic Idealize.ShloMosaic.ValueIdx Cert.ReferenceIdeal Cert.ReferenceIdeal.Read

/-- The column the reference concatenates second is the specification's column. -/
theorem ref_column (x0 : S256.Idx → Ideal .f32) (x1 x2 : S200000x256.Idx → Ideal .f32) :
    val_main_v7 (F := Ideal) x0 x1 x2 = Cert.Spec.column x0 x1 x2 := by
  funext i
  rw [val_main_v7_apply, val_main_v6_apply, val_main_v5_apply, val_main_cst_apply]
  show Ideal.ofBits .f32 0x00000000#32 + _ = _
  rw [Ideal.ofBits_zero_f32, zero_add]
  unfold Cert.Spec.column Cert.Spec.total
  refine Finset.sum_congr rfl fun k _ => ?_
  rw [val_main_v4_apply, val_main_v3_apply, val_main_v2_apply, val_main_v1_apply]
  unfold Cert.Spec.term Cert.Spec.score
  show Ideal.exp _ * _ = _
  have e2 : idx_main_v5 (idx_main_v6 (idx_main_v7 i)) k = ix2 k (⟨(i 0).val, (i 0).isLt⟩ : Fin 256) :=
    funext fun a => Fin.ext (by match a with | ⟨0, _⟩ => rfl | ⟨1, _⟩ => rfl)
  rw [e2]
  refine congrArg (fun s => Ideal.exp s * x2 (ix2 k (⟨(i 0).val, (i 0).isLt⟩ : Fin 256))) (Finset.sum_congr rfl fun j _ => ?_)
  rw [val_main_v0_apply]
  have el : lidx_main_v1 (idx_main_v3 (ix2 k (⟨(i 0).val, (i 0).isLt⟩ : Fin 256))) j = ix2 k j :=
    funext fun a => Fin.ext (by match a with | ⟨0, _⟩ => rfl | ⟨1, _⟩ => rfl)
  have er : idx_main_v0 (ridx_main_v1 (idx_main_v3 (ix2 k (⟨(i 0).val, (i 0).isLt⟩ : Fin 256))) j) = ix1 j :=
    funext fun a => Fin.ext (by match a with | ⟨0, _⟩ => show j.val * 1 + 0 = j.val; omega)
  rw [el, er]

end Cert.RefValue

end
-- ==== Proof.lean ====
/-
  Both programs compute, from an item vector u of 256 entries and memories K, V of 200000 rows by 256 columns,
  the item vector as a column stacked over the column whose entry d is the sum over all rows k of
  exp (K k · u) * V k d.

  The reference does it at once: one matrix-vector product, an exponential, one scaled sum over all rows. The kernel
  streams K and V in forty tiles of 5000 rows, twenty to each half of the rows; it keeps a running row of 256 partial
  sums, restarted from zero at the first tile of each half, and writes each half's sum out after its last tile; the two
  half sums are then added on the host. Over the extended reals the exponential, the products and the inner sums are the
  same on both sides term by term, and the only law between the two arrangements is that a sum over 200000 consecutive
  terms is the sum of its forty consecutive stretches of 5000, grouped twenty and twenty: addition of extended reals is
  commutative and associative, so no finiteness of the inputs is used.

  The three frames are the generated ones (the reference's from its generated run); the idealization rewrote nothing.
-/
import proofs.«419177_j67276367725290_4_alg».proof.Defs
import proofs.«419177_j67276367725290_4_alg».proof.Proof.Gen.Kernel
import proofs.«419177_j67276367725290_4_alg».proof.Proof.Gen.Kernel.Skeleton
import proofs.«419177_j67276367725290_4_alg».proof.Proof.Gen.Kernel.Launch
import proofs.«419177_j67276367725290_4_alg».proof.Proof.Gen.Kernel.Points
import proofs.«419177_j67276367725290_4_alg».proof.Proof.Gen.Kernel.Frame
import proofs.«419177_j67276367725290_4_alg».proof.Proof.Gen.KernelIdeal
import proofs.«419177_j67276367725290_4_alg».proof.Proof.Gen.KernelIdeal.Skeleton
import proofs.«419177_j67276367725290_4_alg».proof.Proof.Gen.KernelIdeal.Launch
import proofs.«419177_j67276367725290_4_alg».proof.Proof.Gen.KernelIdeal.Points
import proofs.«419177_j67276367725290_4_alg».proof.Proof.Gen.KernelIdeal.Frame
import proofs.«419177_j67276367725290_4_alg».proof.Proof.Gen.ReferenceIdeal
import proofs.«419177_j67276367725290_4_alg».proof.Proof.Gen.Pre_finite_inputs
import Idealize.ShloMosaic.Adequacy
import Idealize.ShloMosaic.Init
import proofs.«419177_j67276367725290_4_alg».proof.Proof.KernelRun
import proofs.«419177_j67276367725290_4_alg».proof.Proof.RefValue

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the item vector stacked over the specification's column of the (agreeing) arguments. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2.1, (hagree c).2.2]
  unfold Cert.ReferenceIdeal.Read.val_main_v10 Cert.ReferenceIdeal.Read.val_main_v9 Cert.ReferenceIdeal.Read.val_main_v8
    Cert.ReferenceIdeal.Read.val_main_v0
  rw [Cert.RefValue.ref_column]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
